-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000x16 : Shape := ⟨2, ![3200000, 16]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S16x64 : Shape := ⟨2, ![16, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg14 : FVec F S16 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg14
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg10 : FVec F S64 .f32) (main_arg11 : FVec F S64x16 .f32) (main_arg12 : FVec F S16 .f32) (main_arg13 : FVec F S64x16 .f32) (main_arg14 : FVec F S16 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg11
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg12
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S64x16 .f32 := Host.absf main_arg13
  let main_cst_18 : FVec F S_ .f32 := constant S_ .f32 0x7F800000#32
  let main_v50 : FVec F S64x16 .f32 := broadcastInDim S64x16 ![] bcast_S_S64x16 main_cst_18
  fn_part3 (F := F) main_arg14 main_v48 main_v49 main_v50

def fn_part1 {F : FTy → Type} [FloatOps F] (main_arg7 : FVec F S64x64 .f32) (main_arg8 : FVec F S64 .f32) (main_arg9 : FVec F S16x64 .f32) (main_arg10 : FVec F S64 .f32) (main_arg11 : FVec F S64x16 .f32) (main_arg12 : FVec F S16 .f32) (main_arg13 : FVec F S64x16 .f32) (main_arg14 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg9
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : FVec F S3200000x16 .f32) (main_arg2 : IVec S3200000 32) (main_arg3 : IVec S3200000 32) (main_arg4 : IVec S100000 32) (main_arg5 : FVec F S128x64 .f32) (main_arg6 : FVec F S64 .f32) (main_arg7 : FVec F S64x64 .f32) (main_arg8 : FVec F S64 .f32) (main_arg9 : FVec F S16x64 .f32) (main_arg10 : FVec F S64 .f32) (main_arg11 : FVec F S64x16 .f32) (main_arg12 : FVec F S16 .f32) (main_arg13 : FVec F S64x16 .f32) (main_arg14 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x16 .f32 := Host.absf main_arg1
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S3200000x16 : Shape := ⟨2, ![3200000, 16]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S16x64 : Shape := ⟨2, ![16, 64]⟩
abbrev S64x16 : Shape := ⟨2, ![64, 16]⟩
abbrev S16 : Shape := ⟨1, ![16]⟩
abbrev S_ : Shape := ⟨0, ![]⟩
abbrev S3200000x1 : Shape := ⟨2, ![3200000, 1]⟩
abbrev S100000x1 : Shape := ⟨2, ![100000, 1]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3200000x64 : Shape := ⟨2, ![3200000, 64]⟩
abbrev S64x1 : Shape := ⟨2, ![64, 1]⟩
abbrev S1x16 : Shape := ⟨2, ![1, 16]⟩

abbrev nBuf : Space → Nat
  | .hbm => 97
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S3200000x16, .f32⟩
  | .hbm, ⟨2, _⟩ => ⟨S3200000, .i32⟩
  | .hbm, ⟨3, _⟩ => ⟨S3200000, .i32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S16x64, .f32⟩
  | .hbm, ⟨10, _⟩ => ⟨S64, .f32⟩
  | .hbm, ⟨11, _⟩ => ⟨S64x16, .f32⟩
  | .hbm, ⟨12, _⟩ => ⟨S16, .f32⟩
  | .hbm, ⟨13, _⟩ => ⟨S64x16, .f32⟩
  | .hbm, ⟨14, _⟩ => ⟨S16, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S3200000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S1x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x64, .f32⟩
  | .hbm, ⟨67, _⟩ => ⟨S_, .f32⟩
  | .hbm, ⟨68, _⟩ => ⟨S100000x64, .f32⟩
  | .hbm, ⟨69, _⟩ => ⟨S3200000x1, .i32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S64x64, .f32⟩
  | .hbm, ⟨74, _⟩ => ⟨S100000x1, .i32⟩
  | .hbm, ⟨75, _⟩ => ⟨S64x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S64, .f32⟩
  | .hbm, ⟨80, _⟩ => ⟨S100000x1, .i32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64x1, .f32⟩
  | .hbm, ⟨87, _⟩ => ⟨S64x64, .f32⟩
  | .hbm, ⟨88, _⟩ => ⟨S64x64, .f32⟩
  | .hbm, ⟨89, _⟩ => ⟨S64x16, .f32⟩
  | .hbm, ⟨90, _⟩ => ⟨S1x16, .f32⟩
  | .hbm, ⟨91, _⟩ => ⟨S64x16, .f32⟩
  | .hbm, ⟨92, _⟩ => ⟨S64x16, .f32⟩
  | .hbm, ⟨93, _⟩ => ⟨S64x16, .f32⟩
  | .hbm, ⟨94, _⟩ => ⟨S1x16, .f32⟩
  | .hbm, ⟨95, _⟩ => ⟨S64x16, .f32⟩
  | .hbm, ⟨96, _⟩ => ⟨S64x16, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_6 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_c_9 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_10 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_cst_13 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_14 : Ref sig .tc := ⟨.hbm, 82, rfl⟩
abbrev main_call2_v0 : Ref sig .tc := ⟨.hbm, 83, rfl⟩
abbrev main_call2_v1 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S3200000x1_S3200000_n_0_0_1_wf : ScatterDims.WF S100000 S3200000x1 S3200000 [] [0] [0] 1
  dot_S4000x128_S128x64_S4000x64_1_0_0_1_n_n_wf : DotDims.WF S4000x128 S128x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16_S64x16_1_0_0_1_n_n_wf : DotDims.WF S64x64 S64x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S3200000x16 : Shape := ⟨2, ![3200000, 16]⟩
abbrev S3200000 : Shape := ⟨1, ![3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S16x64 : Shape := ⟨2, ![16, 64]⟩
abbrev S64x16 : Shape := ⟨2, ![64, 16]⟩
abbrev S16 : Shape := ⟨1, ![16]⟩
abbrev S_ : Shape := ⟨0, ![]⟩
abbrev S3200000x1 : Shape := ⟨2, ![3200000, 1]⟩
abbrev S100000x64 : Shape := ⟨2, ![100000, 64]⟩
abbrev S100000x1 : Shape := ⟨2, ![100000, 1]⟩
abbrev S3200000x64 : Shape := ⟨2, ![3200000, 64]⟩
abbrev S1x64 : Shape := ⟨2, ![1, 64]⟩
abbrev S64x1 : Shape := ⟨2, ![64, 1]⟩
abbrev S1x16 : Shape := ⟨2, ![1, 16]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S3200000x16, .f32⟩
  | 2 => ⟨S3200000, .i32⟩
  | 3 => ⟨S3200000, .i32⟩
  | 4 => ⟨S100000, .i32⟩
  | 5 => ⟨S128x64, .f32⟩
  | 6 => ⟨S64, .f32⟩
  | 7 => ⟨S64x64, .f32⟩
  | 8 => ⟨S64, .f32⟩
  | 9 => ⟨S16x64, .f32⟩
  | 10 => ⟨S64, .f32⟩
  | 11 => ⟨S64x16, .f32⟩
  | 12 => ⟨S16, .f32⟩
  | 13 => ⟨S64x16, .f32⟩
  | 14 => ⟨S16, .f32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S100000x64, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x64, .f32⟩
  | 49 => ⟨S_, .f32⟩
  | 50 => ⟨S100000x64, .f32⟩
  | 51 => ⟨S3200000x1, .i32⟩
  | 52 => ⟨S100000x64, .f32⟩
  | 53 => ⟨S_, .f32⟩
  | 54 => ⟨S100000, .f32⟩
  | 55 => ⟨S100000, .f32⟩
  | 56 => ⟨S100000x1, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S_, .f32⟩
  | 66 => ⟨S3200000, .f32⟩
  | 67 => ⟨S_, .f32⟩
  | 68 => ⟨S100000, .f32⟩
  | 69 => ⟨S3200000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S100000, .f32⟩
  | 77 => ⟨S3200000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S100000x64, .f32⟩
  | 84 => ⟨S_, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x64, .f32⟩
  | 99 => ⟨S_, .f32⟩
  | 100 => ⟨S100000x64, .f32⟩
  | 101 => ⟨S3200000x1, .i32⟩
  | 102 => ⟨S100000x64, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S3200000x64, .f32⟩
  | 116 => ⟨S1x64, .f32⟩
  | 117 => ⟨S3200000x64, .f32⟩
  | 118 => ⟨S3200000x64, .f32⟩
  | 119 => ⟨S_, .f32⟩
  | 120 => ⟨S64x64, .f32⟩
  | 121 => ⟨S100000x1, .i32⟩
  | 122 => ⟨S64x64, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x128, .f32⟩

abbrev hbmTy0_1 (i : Nat) : BufTy := match i % 128 with
  | 0 => ⟨S64, .f32⟩
  | 1 => ⟨S_, .f32⟩
  | 2 => ⟨S_, .f32⟩
  | 3 => ⟨S64, .f32⟩
  | 4 => ⟨S64, .f32⟩
  | 5 => ⟨S64x1, .f32⟩
  | 6 => ⟨S64x64, .f32⟩
  | 7 => ⟨S64x64, .f32⟩
  | 8 => ⟨S64x16, .f32⟩
  | 9 => ⟨S1x16, .f32⟩
  | 10 => ⟨S64x16, .f32⟩
  | 11 => ⟨S64x16, .f32⟩
  | 12 => ⟨S64x16, .f32⟩
  | 13 => ⟨S1x16, .f32⟩
  | 14 => ⟨S64x16, .f32⟩
  | 15 => ⟨S64x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_v9 : Ref sig .tc := ⟨.hbm, 33, rfl⟩
abbrev main_cst_4 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call2_cst : Ref sig .tc := ⟨.hbm, 62, rfl⟩
abbrev main_call2_v0 : Ref sig .tc := ⟨.hbm, 63, rfl⟩
abbrev main_v33 : Ref sig .tc := ⟨.hbm, 64, rfl⟩
abbrev main_cst_8 : Ref sig .tc := ⟨.hbm, 65, rfl⟩
abbrev main_v34 : Ref sig .tc := ⟨.hbm, 66, rfl⟩
abbrev main_cst_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_12 : Ref sig .tc := ⟨.hbm, 79, rfl⟩
abbrev main_call4_v0 : Ref sig .tc := ⟨.hbm, 80, rfl⟩
abbrev main_call4_v1 : Ref sig .tc := ⟨.hbm, 81, rfl⟩
abbrev main_v42 : Ref sig .tc := ⟨.hbm, 82, rfl⟩
abbrev main_v43 : Ref sig .tc := ⟨.hbm, 83, rfl⟩
abbrev main_cst_13 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_14 : Ref sig .tc := ⟨.hbm, 90, rfl⟩
abbrev main_v49 : Ref sig .tc := ⟨.hbm, 91, rfl⟩
abbrev main_v50 : Ref sig .tc := ⟨.hbm, 92, rfl⟩
abbrev main_c_15 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_16 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_17 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call5_cst : Ref sig .tc := ⟨.hbm, 112, rfl⟩
abbrev main_call5_v0 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_18 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_19 : Ref sig .tc := ⟨.hbm, 123, rfl⟩
abbrev main_v75 : Ref sig .tc := ⟨.hbm, 124, rfl⟩
abbrev main_cst_20 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_21 : Ref sig .tc := ⟨.hbm, 129, rfl⟩
abbrev main_call6_v0 : Ref sig .tc := ⟨.hbm, 130, rfl⟩
abbrev main_call6_v1 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S3200000x64_0_1 : S1x64.BroadcastsInDim S3200000x64 (![0, 1] : Fin 2 → Fin S3200000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S3200000x16_S16x64_S3200000x64_1_0_0_1_n_n_wf : DotDims.WF S3200000x16 S16x64 S3200000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16_S64x16_1_0_0_1_n_n_wf : DotDims.WF S64x64 S64x16 S64x16 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S3200000x16_S16x64_S3200000x64_1_0_0_1_n_n : DotDims S3200000x16 S16x64 S3200000x64 where
  lhsContracting := [1]
  rhsContracting := [0]
  lhsNonContracting := [0]
  rhsNonContracting := [1]
  lhsBatch := []
  rhsBatch := []
  wf := dot_S3200000x16_S16x64_S3200000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf

class Facts : Prop extends Facts₀ where

variable [Facts]
-- ==== Proof.Shared.lean ====
/-
  The stages both programs share, each as one function of whole arrays.

  A node's degree scale is `deg ^ (-1/2)`, with `deg` the number of edges whose endpoint array names the node,
  clipped below at one (`invSqrtDeg`). Message passing gathers the source rows of a node array along the edges and adds
  them into the destination rows (`spread`). A graph-convolution layer is a dense product scaled per row by the
  out-degree scale (`layer1`); after message passing the rows are scaled by the in-degree scale, a bias is added and
  negatives are clamped to zero (`act`); the second layer applies the same dense product and scale to that (`layer2`).
  The per-graph mean (`pooled`) divides the per-graph row sums by the per-graph node counts clipped below at one, and a
  head is a dense product plus a bias (`head`). `whole` is their composition, one head's worth.

  The terms are spelt exactly as the host program spells them, so that a program's composed term is `whole` of its
  arguments by unfolding.
-/
import proofs.«163730_j56934086476461_1_alg».proof.Proof.Gen.ReferenceIdeal

noncomputable section

namespace Cert.Shared

open Cert.ReferenceIdeal Cert.ReferenceIdeal.Gen Idealize.ShloMosaic Idealize.ShloMosaic.TcCoe

variable {F : FTy → Type} [FloatOps F]

/-- Whole-array values of a shape and element type. -/
abbrev Arr (F : FTy → Type) [FloatOps F] (s : Shape) (e : EltTy) : Type := (⟨s, e⟩ : BufTy).Contents (Elt F)

/-- `deg ^ (-1/2)` per node, `deg` the count of edges naming the node in `e`, clipped below at one. -/
def invSqrtDeg (e : Arr F S3200000 .i32) : Arr F S100000 .f32 :=
  Host.powf (maximumf (broadcastInDim S100000 ![] bcast_S_S100000 (id (constant S_ .f32 0x3F800000#32))) (Host.scatterAdd scatter_S100000_S3200000x1_S3200000_n_0_0_1 (broadcastInDim S100000 ![] bcast_S_S100000 (constant S_ .f32 0x00000000#32)) (broadcastInDim S3200000x1 ![0] bcast_S3200000_S3200000x1_0 e) (broadcastInDim S3200000 ![] bcast_S_S3200000 (constant S_ .f32 0x3F800000#32)))) (broadcastInDim S100000 ![] bcast_S_S100000 (constant S_ .f32 0xBF000000#32))

/-- Message passing: row `src e` of `h` (a negative index wrapped once) added into row `dst e`, over every edge `e`. -/
def spread (h : Arr F S100000x64 .f32) (src dst : Arr F S3200000 .i32) : Arr F S100000x64 .f32 :=
  Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 dst) (Host.gather gather_S100000x64_S3200000x1_S3200000x64_1_0_n_n_0_1_164 h (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))

/-- Every row of `h` times that row's entry of `d`. -/
def rowScale (h : Arr F S100000x64 .f32) (d : Arr F S100000 .f32) : Arr F S100000x64 .f32 :=
  mulf h (broadcastInDim S100000x64 ![0, 1] bcast_S100000x1_S100000x64_0_1 (broadcastInDim S100000x1 ![0] bcast_S100000_S100000x1_0 d))

/-- The first layer's projection: `x · W`, each row scaled by `d`. -/
def layer1 (x : Arr F S100000x128 .f32) (W : Arr F S128x64 .f32) (d : Arr F S100000 .f32) : Arr F S100000x64 .f32 :=
  rowScale (Host.dotGeneral dot_S100000x128_S128x64_S100000x64_1_0_0_1_n_n none x W) d

/-- A layer's closing step: rows scaled by `d`, the bias `b` added along the columns, negatives clamped to zero. -/
def act (a : Arr F S100000x64 .f32) (d : Arr F S100000 .f32) (b : Arr F S64 .f32) : Arr F S100000x64 .f32 :=
  maximumf (addf (rowScale a d) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The second layer's projection of the first layer's closed output. -/
def layer2 (a : Arr F S100000x64 .f32) (din : Arr F S100000 .f32) (b : Arr F S64 .f32) (W : Arr F S64x64 .f32) (dout : Arr F S100000 .f32) : Arr F S100000x64 .f32 :=
  rowScale (Host.dotGeneral dot_S100000x64_S64x64_S100000x64_1_0_0_1_n_n none (act a din b) W) dout

/-- The per-graph mean of the node rows: row sums per graph over node counts per graph clipped below at one. -/
def pooled (h : Arr F S100000x64 .f32) (ng : Arr F S100000 .i32) : Arr F S64x64 .f32 :=
  Host.divf (Host.scatterAdd scatter_S64x64_S100000x1_S100000x64_1_0_0_1 (broadcastInDim S64x64 ![] bcast_S_S64x64 (constant S_ .f32 0x00000000#32)) (broadcastInDim S100000x1 ![0] bcast_S100000_S100000x1_0 ng) h) (broadcastInDim S64x64 ![0, 1] bcast_S64x1_S64x64_0_1 (broadcastInDim S64x1 ![0] bcast_S64_S64x1_0 (maximumf (broadcastInDim S64 ![] bcast_S_S64 (id (constant S_ .f32 0x3F800000#32))) (Host.scatterAdd scatter_S64_S100000x1_S100000_n_0_0_1 (broadcastInDim S64 ![] bcast_S_S64 (constant S_ .f32 0x00000000#32)) (broadcastInDim S100000x1 ![0] bcast_S100000_S100000x1_0 ng) (broadcastInDim S100000 ![] bcast_S_S100000 (constant S_ .f32 0x3F800000#32))))))

/-- A linear head: `g · W` plus the bias `b` along the columns. -/
def head (g : Arr F S64x64 .f32) (W : Arr F S64x16 .f32) (b : Arr F S16 .f32) : Arr F S64x16 .f32 :=
  addf (Host.dotGeneral dot_S64x64_S64x16_S64x16_1_0_0_1_n_n none g W) (broadcastInDim S64x16 ![0, 1] bcast_S1x16_S64x16_0_1 (broadcastInDim S1x16 ![1] bcast_S16_S1x16_1 b))

/-- The node embeddings after both layers. -/
def embed (x : Arr F S100000x128 .f32) (src dst : Arr F S3200000 .i32) (W1 : Arr F S128x64 .f32) (b1 : Arr F S64 .f32)
    (W2 : Arr F S64x64 .f32) (b2 : Arr F S64 .f32) : Arr F S100000x64 .f32 :=
  act (spread (layer2 (spread (layer1 x W1 (invSqrtDeg src)) src dst) (invSqrtDeg dst) b1 W2 (invSqrtDeg src)) src dst) (invSqrtDeg dst) b2

/-- One output: a head of the per-graph mean of the node embeddings. -/
def whole (x : Arr F S100000x128 .f32) (src dst : Arr F S3200000 .i32) (ng : Arr F S100000 .i32) (W1 : Arr F S128x64 .f32)
    (b1 : Arr F S64 .f32) (W2 : Arr F S64x64 .f32) (b2 : Arr F S64 .f32) (Wh : Arr F S64x16 .f32) (bh : Arr F S16 .f32) : Arr F S64x16 .f32 :=
  head (pooled (embed x src dst W1 b1 W2 b2) ng) Wh bh

end Cert.Shared

end
-- ==== Proof.RefSide.lean ====
/-
  The host program's two results are `Shared.whole` of its arguments.

  Its run states each result as one composed term of the launch contents. The term computes both degree scales
  twice, once per layer, from the same edge arrays: the two spellings are one term, so the composition of the shared stages
  (`Shared.whole`) unfolds to it. The product of the edge features with their weights is computed by the program but
  reaches neither result.
-/
import proofs.«163730_j56934086476461_1_alg».proof.Proof.Gen.ReferenceIdeal.Run
import proofs.«163730_j56934086476461_1_alg».proof.Proof.Shared

set_option maxRecDepth 8192

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]
variable (m : (ℓ : Loc nD τ sig) → Buf (Elt F) ℓ) (c : Dev nD)

/-- The first result: the head with weights `main_arg11` and bias `main_arg12`. -/
theorem res_out0_eq : res_out0 m c = Cert.Shared.whole (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg11)) (m ((c.tc : Thread nD τ).loc main_arg12)) := by
  show res_main_v86 m c = _
  unfold res_main_v86
  rfl

/-- The second result: the head with weights `main_arg13` and bias `main_arg14`. -/
theorem res_out1_eq : res_out1 m c = Cert.Shared.whole (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg13)) (m ((c.tc : Thread nD τ).loc main_arg14)) := by
  show res_main_v90 m c = _
  unfold res_main_v90
  rfl

end Cert.ReferenceIdeal.RefValue

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.DenseAt.lean ====
/-
  The dense stages read at one entry.

  On the extended reals a row scale multiplies entry (r, q) by the scale's entry r; the first layer's projection at (r, q) is
  the textbook sum over k of x (r, k) · W (k, q), times the scale at r; a layer's closing step at (r, q) is the larger of
  a (r, q) · d r + b q and zero; the second layer's projection is the first's with the closed rows in place of x.
-/
import proofs.«163730_j56934086476461_1_alg».proof.Proof.Shared
import proofs.«163730_j56934086476461_1_alg».proof.Proof.LibPlainDot
import Idealize.ShloMosaic.Lib.ValueIdx
import Idealize.ShloMosaic.Lib.Pipeline.Value
import Idealize.ShloMosaic.PureOps.Ideal.Laws

noncomputable section

namespace Cert.Shared

open Cert.ReferenceIdeal Cert.ReferenceIdeal.Gen Idealize.ShloMosaic Idealize.ShloMosaic.TcCoe Idealize.ShloMosaic.ValueIdx

/-- A vector of row scales, made a column and then spread over the 64 columns, read at (r, q): the vector's entry r. -/
private theorem spreadRows_apply (d : Arr Ideal S100000 .f32) (r : Fin 100000) (q : Fin 64) :
    broadcastInDim S100000x64 ![0, 1] bcast_S100000x1_S100000x64_0_1
      (broadcastInDim S100000x1 ![0] bcast_S100000_S100000x1_0 d) (ix2 r q) = d (ix1 r) := by
  refine (broadcastInDim_apply _ bcast_S100000x1_S100000x64_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans ?_
  exact broadcastInDim_apply _ bcast_S100000_S100000x1_0 d (ix2 r (0 : Fin 1)) (ix1 r) (fun a => match a with
    | ⟨0, _⟩ => by show r.val = if (100000 : Nat) = 1 then 0 else r.val; rw [if_neg (by decide)])

/-- A bias vector, made a row and then spread over the rows, read at (r, q): the vector's entry q. -/
private theorem spreadCols_apply (b : Arr Ideal S64 .f32) (r : Fin 100000) (q : Fin 64) :
    broadcastInDim S100000x64 ![0, 1] bcast_S1x64_S100000x64_0_1
      (broadcastInDim S1x64 ![1] bcast_S64_S1x64_1 b) (ix2 r q) = b (ix1 q) := by
  refine (broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero scalar spread over the whole array, read at (r, q): zero. -/
private theorem spreadZero_apply (r : Fin 100000) (q : Fin 64) :
    broadcastInDim S100000x64 ![] bcast_S_S100000x64 (constant (F := Ideal) S_ .f32 0x00000000#32) (ix2 r q)
      = Ideal.ofBits .f32 0x00000000#32 :=
  broadcastInDim_apply _ bcast_S_S100000x64 (constant (F := Ideal) S_ .f32 0x00000000#32) (ix2 r q) ix0 (fun a => a.elim0)

/-- Entry (r, q) of a row-scaled array. -/
theorem rowScale_apply (h : Arr Ideal S100000x64 .f32) (d : Arr Ideal S100000 .f32) (r : Fin 100000) (q : Fin 64) :
    rowScale h d (ix2 r q) = (h (ix2 r q) : EReal) * d (ix1 r) := by
  unfold rowScale
  rw [mulf_apply, spreadRows_apply]

/-- Entry (r, q) of the first layer's projection. -/
theorem layer1_apply (x : Arr Ideal S100000x128 .f32) (W : Arr Ideal S128x64 .f32) (d : Arr Ideal S100000 .f32) (r : Fin 100000) (q : Fin 64) :
    layer1 x W d (ix2 r q) = (∑ k : Fin 128, (x (ix2 r k) : EReal) * W (ix2 k q)) * d (ix1 r) := by
  unfold layer1
  rw [rowScale_apply]
  exact congrArg (· * (d (ix1 r) : EReal))
    (Cert.PlainDot.dotGeneral_apply dot_S100000x128_S128x64_S100000x64_1_0_0_1_n_n rfl rfl rfl rfl rfl rfl none .single x W r q)

/-- Entry (r, q) of a layer's closing step. -/
theorem act_apply (a : Arr Ideal S100000x64 .f32) (d : Arr Ideal S100000 .f32) (b : Arr Ideal S64 .f32) (r : Fin 100000) (q : Fin 64) :
    act a d b (ix2 r q) = max ((a (ix2 r q) : EReal) * d (ix1 r) + b (ix1 q)) (Ideal.ofBits .f32 0x00000000#32) := by
  unfold act
  rw [maximumf_apply, addf_apply, rowScale_apply, spreadCols_apply, spreadZero_apply]

/-- Entry (r, q) of the second layer's projection. -/
theorem layer2_apply (a : Arr Ideal S100000x64 .f32) (din : Arr Ideal S100000 .f32) (b : Arr Ideal S64 .f32) (W : Arr Ideal S64x64 .f32)
    (dout : Arr Ideal S100000 .f32) (r : Fin 100000) (q : Fin 64) :
    layer2 a din b W dout (ix2 r q) = (∑ k : Fin 64, (act a din b (ix2 r k) : EReal) * W (ix2 k q)) * dout (ix1 r) := by
  unfold layer2
  rw [rowScale_apply]
  exact congrArg (· * (dout (ix1 r) : EReal))
    (Cert.PlainDot.dotGeneral_apply dot_S100000x64_S64x64_S100000x64_1_0_0_1_n_n rfl rfl rfl rfl rfl rfl none .single (act a din b) W r q)

end Cert.Shared

end
-- ==== Proof.KernelBody.lean ====
/-
  What each kernel body stores, read at one entry of its output block.

  Over blocks of 4000 rows: the first body stores (x · W) (p, q) times the scale column's entry p; the second closes its
  input rows (scale, bias, clamp at zero), multiplies them by W and scales by the second column; the third only closes.
  The change of float format before each product is the identity on the extended reals, and the product into the zero
  accumulator is the textbook sum.
-/
import proofs.«163730_j56934086476461_1_alg».proof.Proof.Gen.KernelIdeal.Frame
import proofs.«163730_j56934086476461_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-- The zero offsets of a whole-block rectangle, however they are spelt. -/
private theorem offs_zero : (![0, 0] : Fin 2 → Nat) = fun _ => 0 := funext fun a => by fin_cases a <;> rfl

/-- A column of 4000 entries spread over 64 columns reads, at (p, q), the column's entry p. -/
private theorem spreadCol_apply {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => show p.val = if (4000 : Nat) = 1 then 0 else p.val; rw [if_neg (by decide)]
  | ⟨1, _⟩ => rfl

/-- The first region's output block at (p, q). -/
theorem out0_3_apply (x0 : Vec Ideal S4000x128 .f32) (x1 : Vec Ideal S128x64 .f32) (x2 : Vec Ideal S4000x1 .f32) (p : Fin 4000) (q : Fin 64) :
    out0_3 x0 x1 x2 (ix2 p q) = (∑ k : Fin 128, (x0 (ix2 p k) : EReal) * x1 (ix2 k q)) * x2 (ix2 p 0) := by
  unfold out0_3
  rw [View.canon_unit_zero offs_zero]
  simp only [View.ld_unit_zero (S := S4000x128) offs_zero, View.ld_unit_zero (S := S128x64) offs_zero,
    View.ld_unit_zero (S := S4000x1) offs_zero]
  unfold k0_pay1
  rw [mulf_apply, spreadCol_apply, shapeCast_self]
  exact congrArg (· * (x2 (ix2 p 0) : EReal))
    (Cert.PlainDot.matmul_zero_apply dot_S4000x128_S128x64_S4000x64_1_0_0_1_n_n rfl rfl rfl rfl rfl rfl none
      (truncf .bf16 x0 bitsLt_bf16_f32) (truncf .bf16 x1 bitsLt_bf16_f32) p q)

/-- The closed rows inside the second and third bodies, at (p, k). -/
abbrev closed (x0 : Vec Ideal S4000x64 .f32) (x1 : Vec Ideal S4000x1 .f32) (x2 : Vec Ideal S1x64 .f32) (p : Fin 4000) (k : Fin 64) : EReal :=
  max ((x0 (ix2 p k) : EReal) * x1 (ix2 p 0) + x2 (ix2 0 k)) (Ideal.ofBits .f32 0x00000000#32)

/-- The closing step as the bodies spell it (casts of a shape to itself, the column and the row spread over the block,
    the clamp against the zero scalar), at (p, k). -/
private theorem closedRows_apply (x0 : Vec Ideal S4000x64 .f32) (x1 : Vec Ideal S4000x1 .f32) (x2 : Vec Ideal S1x64 .f32)
    (h0 : S4000x64.ShapeCasts S4000x64) (h1 : S4000x1.ShapeCasts S4000x1) (hb1 : S4000x1.Broadcasts S4000x64)
    (h2 : S1x64.ShapeCasts S1x64) (hb2 : S1x64.Broadcasts S4000x64) (p : Fin 4000) (k : Fin 64) :
    maximumf (addf (mulf (shapeCast S4000x64 x0 h0) (broadcastTo S4000x64 (shapeCast S4000x1 x1 h1) hb1))
        (broadcastTo S4000x64 (shapeCast S1x64 x2 h2) hb2))
      (broadcast S4000x64 (Scalar.ofBits (F := Ideal) .f32 0x00000000#32)) (ix2 p k) = closed x0 x1 x2 p k := by
  rw [maximumf_apply, addf_apply, mulf_apply, shapeCast_self, shapeCast_self, shapeCast_self, spreadCol_apply,
    broadcastTo_1b_ab_apply, broadcast_apply]
  rfl

/-- The second region's output block at (p, q). -/
theorem out1_5_apply (x0 : Vec Ideal S4000x64 .f32) (x1 : Vec Ideal S4000x1 .f32) (x2 : Vec Ideal S1x64 .f32) (x3 : Vec Ideal S64x64 .f32)
    (x4 : Vec Ideal S4000x1 .f32) (p : Fin 4000) (q : Fin 64) :
    out1_5 x0 x1 x2 x3 x4 (ix2 p q) = (∑ k : Fin 64, closed x0 x1 x2 p k * x3 (ix2 k q)) * x4 (ix2 p 0) := by
  unfold out1_5
  rw [View.canon_unit_zero offs_zero]
  simp only [View.ld_unit_zero (S := S4000x64) offs_zero, View.ld_unit_zero (S := S4000x1) offs_zero,
    View.ld_unit_zero (S := S1x64) offs_zero, View.ld_unit_zero (S := S64x64) offs_zero]
  unfold k1_pay1
  rw [mulf_apply, spreadCol_apply]
  refine congrArg₂ (· * ·) ?_ (congrFun (shapeCast_self x4 _) (ix2 p 0))
  refine (Cert.PlainDot.matmul_zero_apply dot_S4000x64_S64x64_S4000x64_1_0_0_1_n_n rfl rfl rfl rfl rfl rfl none _
    (truncf .bf16 x3 bitsLt_bf16_f32) p q).trans ?_
  refine Finset.sum_congr rfl fun k _ => congrArg (· * (x3 (ix2 k q) : EReal)) ?_
  exact closedRows_apply x0 x1 x2 _ _ _ _ _ p k

/-- The third region's output block at (p, q). -/
theorem out2_3_apply (x0 : Vec Ideal S4000x64 .f32) (x1 : Vec Ideal S4000x1 .f32) (x2 : Vec Ideal S1x64 .f32) (p : Fin 4000) (q : Fin 64) :
    out2_3 x0 x1 x2 (ix2 p q) = closed x0 x1 x2 p q := by
  unfold out2_3
  rw [View.canon_unit_zero offs_zero]
  simp only [View.ld_unit_zero (S := S4000x64) offs_zero, View.ld_unit_zero (S := S4000x1) offs_zero,
    View.ld_unit_zero (S := S1x64) offs_zero]
  unfold k2_pay1
  exact closedRows_apply x0 x1 x2 _ _ _ _ _ p q

end Cert.KernelIdeal.Body

end
-- ==== Proof.KernelArrays.lean ====
/-
  Each region's output array, after its run, as one shared stage of the arrays the region finds.

  A region's grid has 25 points; point t stages rows 4000 t … 4000 t + 3999 of each row-blocked operand and the whole of
  each small operand, and writes back rows 4000 t … 4000 t + 3999 of the output, so the 25 written blocks tile the output.
  What point t writes at (p, q) is the body's value of the staged blocks, which is the whole-array stage at
  (4000 t + p, q). The degree scales reach the kernels as columns [100000, 1] and the biases as rows [1, 64]: a
  hypothesis says how each reads against the one-axis array the shared stage takes.
-/
import proofs.«163730_j56934086476461_1_alg».proof.Proof.Gen.KernelIdeal.Frame
import proofs.«163730_j56934086476461_1_alg».proof.Proof.Shared
import proofs.«163730_j56934086476461_1_alg».proof.Proof.DenseAt
import proofs.«163730_j56934086476461_1_alg».proof.Proof.KernelBody
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its grid: the row-blocked windows sit at block row `t`, block column
    0; the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t`: rows `4000 t …` of the feature array. -/
theorem blk0_0 (c : Dev nD) (t : Fin cfg0.N) (p : Fin 4000) (k : Fin 128) (r : Fin 100000) (hr : r.val = 4000 * t.val + p.val) :
    (iblk0 V c 0 t : Vec Ideal S4000x128 .f32) (ix2 p k) = (V c main_arg0 : S100000x128.Idx → EReal) (ix2 r k) := by
  obtain ⟨e0, e1, -⟩ := idx0 t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The weight window's block at every point is the weight array. -/
theorem blk0_1 (c : Dev nD) (t : Fin cfg0.N) (k : Fin 128) (q : Fin 64) :
    (iblk0 V c 1 t : Vec Ideal S128x64 .f32) (ix2 k q) = (V c main_arg5 : S128x64.Idx → EReal) (ix2 k q) := by
  obtain ⟨-, -, e0, e1, -⟩ := idx0 t
  unfold iblk0
  rw [View.read_apply]
  show (V c main_arg5 : S128x64.Idx → EReal) _ = (V c main_arg5 : S128x64.Idx → EReal) _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The scale column's block at point `t`: rows `4000 t …` of the column. -/
theorem blk0_2 (c : Dev nD) (t : Fin cfg0.N) (p : Fin 4000) (r : Fin 100000) (hr : r.val = 4000 * t.val + p.val) :
    (iblk0 V c 2 t : Vec Ideal S4000x1 .f32) (ix2 p 0) = (V c main_v11 : S100000x1.Idx → EReal) (ix2 r 0) := by
  obtain ⟨-, -, -, -, e0, e1, -⟩ := idx0 t
  unfold iblk0
  rw [View.read_apply]
  show (V c main_v11 : S100000x1.Idx → EReal) _ = (V c main_v11 : S100000x1.Idx → EReal) _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- Entry (p, q) of the output block at point `t` is entry (4000 t + p, q) of the output array. -/
theorem emb0 (t : Fin cfg0.N) (p : Fin 4000) (q : Fin 64) (r : Fin 100000) (hr : r.val = 4000 * t.val + p.val) :
    ((cfg0.win 3).blk t).view.emb (ix2 p q) = (ix2 r q : S100000x64.Idx) := by
  obtain ⟨-, -, -, -, -, -, e0, e1⟩ := idx0 t
  funext a
  apply Fin.ext
  match a with
  | ⟨0, _⟩ => show win0_3.index t (0 : Fin 2) * 4000 + 1 * p.val = r.val; rw [e0, hr]; omega
  | ⟨1, _⟩ => show win0_3.index t (1 : Fin 2) * 64 + 1 * q.val = q.val; rw [e1]; omega

/-- What point `t` writes back is block `t` of the first layer's projection. -/
theorem flushed0 (c : Dev nD) (d : Cert.Shared.Arr Ideal Cert.ReferenceIdeal.S100000 .f32)
    (hd : ∀ r : Fin 100000, (V c main_v11 : S100000x1.Idx → EReal) (ix2 r 0) = d (ix1 r)) (t : Fin cfg0.N) :
    (dat0 V c).flushed 3 t = ((cfg0.win 3).blk t).view.read (Elt Ideal) (Cert.Shared.layer1 (V c main_arg0) (V c main_arg5) d) := by
  show (cfg0.win 3).cut (grid0.coords t) ((dat0 V c).after 3 t) = _
  rw [after0_3]
  funext j
  obtain ⟨p, q, rfl⟩ : ∃ (p : Fin 4000) (q : Fin 64), j = ix2 p q := ⟨j 0, j 1, eq_ix2 j⟩
  have ht : t.val < 25 := Nat.lt_of_lt_of_eq t.isLt (N_0 : cfg0.N = 25)
  let r : Fin 100000 := ⟨4000 * t.val + p.val, by have := p.isLt; omega⟩
  rw [View.read_apply, emb0 t p q r rfl, Cert.Shared.layer1_apply]
  refine (Cert.KernelIdeal.Body.out0_3_apply (iblk0 V c 0 t) (iblk0 V c 1 t) (iblk0 V c 2 t) p q).trans ?_
  rw [blk0_2 V c t p r rfl, hd r]
  refine congrArg (· * d (ix1 r)) (Finset.sum_congr rfl fun k _ => ?_)
  rw [blk0_0 V c t p k r rfl, blk0_1 V c t k q]

/-- An index of the output array is in point `t`'s block iff each coordinate is in the block's range. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v17).slice (win0_3.rect t)).set ↔ _
  rw [View.set_slice_whole, Rect.mem_set_unit]
  exact Iff.rfl

/-- The 25 written blocks tile the output: row `i` lies in block `i / 4000`. -/
theorem cover0 (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  let t : Fin cfg0.N := ⟨(i 0).val / 4000, by rw [show cfg0.N = 25 from N_0]; omega⟩
  obtain ⟨-, -, -, -, -, -, e0, e1⟩ := idx0 t
  refine ⟨t, flush0_3 t, ?_⟩
  rw [mem_blk0]
  intro a
  have ht : t.val = (i 0).val / 4000 := rfl
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 64 ≤ (i 1).val ∧ (i 1).val < win0_3.index t (1 : Fin 2) * 64 + 64; rw [e1]; omega

/-- Region 0: the first layer's projection of the node features. -/
theorem region0 (c : Dev nD) (d : Cert.Shared.Arr Ideal Cert.ReferenceIdeal.S100000 .f32)
    (hd : ∀ r : Fin 100000, (V c main_v11 : S100000x1.Idx → EReal) (ix2 r 0) = d (ix1 r)) :
    (dat0 V c).arrAt 3 cfg0.N = Cert.Shared.layer1 (V c main_arg0) (V c main_arg5) d :=
  (dat0 V c).arrAt_eq_of_cover 3 _ (fun t _ => flushed0 V c d hd t) cover0

/-! ## Region 1 -/

/-- The printed index maps of region 1, decided over its grid: the row-blocked windows (message-passed rows, in-degree
    column, out-degree column, output) sit at block row `t`; the bias row and the weights at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The message-passed rows' block at point `t`. -/
theorem blk1_0 (c : Dev nD) (t : Fin cfg1.N) (p : Fin 4000) (k : Fin 64) (r : Fin 100000) (hr : r.val = 4000 * t.val + p.val) :
    (iblk1 V c 0 t : Vec Ideal S4000x64 .f32) (ix2 p k) = (V c main_v27 : S100000x64.Idx → EReal) (ix2 r k) := by
  obtain ⟨e0, e1, -⟩ := idx1 t
  unfold iblk1
  rw [View.read_apply]
  show (V c main_v27 : S100000x64.Idx → EReal) _ = (V c main_v27 : S100000x64.Idx → EReal) _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 64 + 1 * k.val = k.val; rw [e1]; omega

/-- The in-degree column's block at point `t`. -/
theorem blk1_1 (c : Dev nD) (t : Fin cfg1.N) (p : Fin 4000) (r : Fin 100000) (hr : r.val = 4000 * t.val + p.val) :
    (iblk1 V c 1 t : Vec Ideal S4000x1 .f32) (ix2 p 0) = (V c main_v14 : S100000x1.Idx → EReal) (ix2 r 0) := by
  obtain ⟨-, -, e0, e1, -⟩ := idx1 t
  unfold iblk1
  rw [View.read_apply]
  show (V c main_v14 : S100000x1.Idx → EReal) _ = (V c main_v14 : S100000x1.Idx → EReal) _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 1 + 1 * 0 = 0; rw [e1]

/-- The bias row's block at every point is the bias row. -/
theorem blk1_2 (c : Dev nD) (t : Fin cfg1.N) (k : Fin 64) :
    (iblk1 V c 2 t : Vec Ideal S1x64 .f32) (ix2 0 k) = (V c main_v15 : S1x64.Idx → EReal) (ix2 0 k) := by
  obtain ⟨-, -, -, -, e0, e1, -⟩ := idx1 t
  unfold iblk1
  rw [View.read_apply]
  show (V c main_v15 : S1x64.Idx → EReal) _ = (V c main_v15 : S1x64.Idx → EReal) _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- The weight window's block at every point is the weight array. -/
theorem blk1_3 (c : Dev nD) (t : Fin cfg1.N) (k : Fin 64) (q : Fin 64) :
    (iblk1 V c 3 t : Vec Ideal S64x64 .f32) (ix2 k q) = (V c main_arg7 : S64x64.Idx → EReal) (ix2 k q) := by
  obtain ⟨-, -, -, -, -, -, e0, e1, -⟩ := idx1 t
  unfold iblk1
  rw [View.read_apply]
  show (V c main_arg7 : S64x64.Idx → EReal) _ = (V c main_arg7 : S64x64.Idx → EReal) _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The out-degree column's block at point `t`. -/
theorem blk1_4 (c : Dev nD) (t : Fin cfg1.N) (p : Fin 4000) (r : Fin 100000) (hr : r.val = 4000 * t.val + p.val) :
    (iblk1 V c 4 t : Vec Ideal S4000x1 .f32) (ix2 p 0) = (V c main_v11 : S100000x1.Idx → EReal) (ix2 r 0) := by
  obtain ⟨-, -, -, -, -, -, -, -, e0, e1, -⟩ := idx1 t
  unfold iblk1
  rw [View.read_apply]
  show (V c main_v11 : S100000x1.Idx → EReal) _ = (V c main_v11 : S100000x1.Idx → EReal) _
  congr 1
  funext a
  apply Fin.ext
  match a with
  | ⟨0, _⟩ => show win1_4.index t (0 : Fin 2) * 4000 + 1 * p.val = r.val; rw [e0, hr]; omega
  | ⟨1, _⟩ => show win1_4.index t (1 : Fin 2) * 1 + 1 * 0 = 0; rw [e1]

/-- Entry (p, q) of the output block at point `t` is entry (4000 t + p, q) of the output array. -/
theorem emb1 (t : Fin cfg1.N) (p : Fin 4000) (q : Fin 64) (r : Fin 100000) (hr : r.val = 4000 * t.val + p.val) :
    ((cfg1.win 5).blk t).view.emb (ix2 p q) = (ix2 r q : S100000x64.Idx) := by
  obtain ⟨-, -, -, -, -, -, -, -, -, -, e0, e1⟩ := idx1 t
  funext a
  apply Fin.ext
  match a with
  | ⟨0, _⟩ => show win1_5.index t (0 : Fin 2) * 4000 + 1 * p.val = r.val; rw [e0, hr]; omega
  | ⟨1, _⟩ => show win1_5.index t (1 : Fin 2) * 64 + 1 * q.val = q.val; rw [e1]; omega

/-- What point `t` writes back is block `t` of the second layer's projection over the closed first layer. -/
theorem flushed1 (c : Dev nD) (din dout : Cert.Shared.Arr Ideal Cert.ReferenceIdeal.S100000 .f32) (b : Cert.Shared.Arr Ideal Cert.ReferenceIdeal.S64 .f32)
    (hdin : ∀ r : Fin 100000, (V c main_v14 : S100000x1.Idx → EReal) (ix2 r 0) = din (ix1 r))
    (hb : ∀ q : Fin 64, (V c main_v15 : S1x64.Idx → EReal) (ix2 0 q) = b (ix1 q))
    (hdout : ∀ r : Fin 100000, (V c main_v11 : S100000x1.Idx → EReal) (ix2 r 0) = dout (ix1 r)) (t : Fin cfg1.N) :
    (dat1 V c).flushed 5 t = ((cfg1.win 5).blk t).view.read (Elt Ideal) (Cert.Shared.layer2 (V c main_v27) din b (V c main_arg7) dout) := by
  show (cfg1.win 5).cut (grid1.coords t) ((dat1 V c).after 5 t) = _
  rw [after1_5]
  funext j
  obtain ⟨p, q, rfl⟩ : ∃ (p : Fin 4000) (q : Fin 64), j = ix2 p q := ⟨j 0, j 1, eq_ix2 j⟩
  have ht : t.val < 25 := Nat.lt_of_lt_of_eq t.isLt (N_1 : cfg1.N = 25)
  let r : Fin 100000 := ⟨4000 * t.val + p.val, by have := p.isLt; omega⟩
  rw [View.read_apply, emb1 t p q r rfl, Cert.Shared.layer2_apply]
  refine (Cert.KernelIdeal.Body.out1_5_apply (iblk1 V c 0 t) (iblk1 V c 1 t) (iblk1 V c 2 t) (iblk1 V c 3 t) (iblk1 V c 4 t) p q).trans ?_
  rw [blk1_4 V c t p r rfl, hdout r]
  refine congrArg (· * dout (ix1 r)) (Finset.sum_congr rfl fun k _ => ?_)
  rw [Cert.Shared.act_apply, blk1_3 V c t k q]
  dsimp only [Cert.KernelIdeal.Body.closed]
  rw [blk1_0 V c t p k r rfl, blk1_1 V c t p r rfl, hdin r, blk1_2 V c t k, hb k]

theorem mem_blk1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v28).slice (win1_5.rect t)).set ↔ _
  rw [View.set_slice_whole, Rect.mem_set_unit]
  exact Iff.rfl

theorem cover1 (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  let t : Fin cfg1.N := ⟨(i 0).val / 4000, by rw [show cfg1.N = 25 from N_1]; omega⟩
  obtain ⟨-, -, -, -, -, -, -, -, -, -, e0, e1⟩ := idx1 t
  refine ⟨t, flush1_5 t, ?_⟩
  rw [mem_blk1]
  intro a
  have ht : t.val = (i 0).val / 4000 := rfl
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 64 ≤ (i 1).val ∧ (i 1).val < win1_5.index t (1 : Fin 2) * 64 + 64; rw [e1]; omega

/-- Region 1: the first layer closed, then the second layer's projection. -/
theorem region1 (c : Dev nD) (din dout : Cert.Shared.Arr Ideal Cert.ReferenceIdeal.S100000 .f32) (b : Cert.Shared.Arr Ideal Cert.ReferenceIdeal.S64 .f32)
    (hdin : ∀ r : Fin 100000, (V c main_v14 : S100000x1.Idx → EReal) (ix2 r 0) = din (ix1 r))
    (hb : ∀ q : Fin 64, (V c main_v15 : S1x64.Idx → EReal) (ix2 0 q) = b (ix1 q))
    (hdout : ∀ r : Fin 100000, (V c main_v11 : S100000x1.Idx → EReal) (ix2 r 0) = dout (ix1 r)) :
    (dat1 V c).arrAt 5 cfg1.N = Cert.Shared.layer2 (V c main_v27) din b (V c main_arg7) dout :=
  (dat1 V c).arrAt_eq_of_cover 5 _ (fun t _ => flushed1 V c din dout b hdin hb hdout t) cover1

/-! ## Region 2 -/

/-- The printed index maps of region 2, decided over its grid. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The message-passed rows' block at point `t`. -/
theorem blk2_0 (c : Dev nD) (t : Fin cfg2.N) (p : Fin 4000) (k : Fin 64) (r : Fin 100000) (hr : r.val = 4000 * t.val + p.val) :
    (iblk2 V c 0 t : Vec Ideal S4000x64 .f32) (ix2 p k) = (V c main_v38 : S100000x64.Idx → EReal) (ix2 r k) := by
  obtain ⟨e0, e1, -⟩ := idx2 t
  unfold iblk2
  rw [View.read_apply]
  show (V c main_v38 : S100000x64.Idx → EReal) _ = (V c main_v38 : S100000x64.Idx → EReal) _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 64 + 1 * k.val = k.val; rw [e1]; omega

/-- The in-degree column's block at point `t`. -/
theorem blk2_1 (c : Dev nD) (t : Fin cfg2.N) (p : Fin 4000) (r : Fin 100000) (hr : r.val = 4000 * t.val + p.val) :
    (iblk2 V c 1 t : Vec Ideal S4000x1 .f32) (ix2 p 0) = (V c main_v14 : S100000x1.Idx → EReal) (ix2 r 0) := by
  obtain ⟨-, -, e0, e1, -⟩ := idx2 t
  unfold iblk2
  rw [View.read_apply]
  show (V c main_v14 : S100000x1.Idx → EReal) _ = (V c main_v14 : S100000x1.Idx → EReal) _
  congr 1
  funext a
  apply Fin.ext
  match a with
  | ⟨0, _⟩ => show win2_1.index t (0 : Fin 2) * 4000 + 1 * p.val = r.val; rw [e0, hr]; omega
  | ⟨1, _⟩ => show win2_1.index t (1 : Fin 2) * 1 + 1 * 0 = 0; rw [e1]

/-- The bias row's block at every point is the bias row. -/
theorem blk2_2 (c : Dev nD) (t : Fin cfg2.N) (k : Fin 64) :
    (iblk2 V c 2 t : Vec Ideal S1x64 .f32) (ix2 0 k) = (V c main_v16 : S1x64.Idx → EReal) (ix2 0 k) := by
  obtain ⟨-, -, -, -, e0, e1, -⟩ := idx2 t
  unfold iblk2
  rw [View.read_apply]
  show (V c main_v16 : S1x64.Idx → EReal) _ = (V c main_v16 : S1x64.Idx → EReal) _
  congr 1
  funext a
  apply Fin.ext
  match a with
  | ⟨0, _⟩ => show win2_2.index t (0 : Fin 2) * 1 + 1 * 0 = 0; rw [e0]
  | ⟨1, _⟩ => show win2_2.index t (1 : Fin 2) * 64 + 1 * k.val = k.val; rw [e1]; omega

/-- Entry (p, q) of the output block at point `t` is entry (4000 t + p, q) of the output array. -/
theorem emb2 (t : Fin cfg2.N) (p : Fin 4000) (q : Fin 64) (r : Fin 100000) (hr : r.val = 4000 * t.val + p.val) :
    ((cfg2.win 3).blk t).view.emb (ix2 p q) = (ix2 r q : S100000x64.Idx) := by
  obtain ⟨-, -, -, -, -, -, e0, e1⟩ := idx2 t
  funext a
  apply Fin.ext
  match a with
  | ⟨0, _⟩ => show win2_3.index t (0 : Fin 2) * 4000 + 1 * p.val = r.val; rw [e0, hr]; omega
  | ⟨1, _⟩ => show win2_3.index t (1 : Fin 2) * 64 + 1 * q.val = q.val; rw [e1]; omega

/-- What point `t` writes back is block `t` of the closed second layer. -/
theorem flushed2 (c : Dev nD) (din : Cert.Shared.Arr Ideal Cert.ReferenceIdeal.S100000 .f32) (b : Cert.Shared.Arr Ideal Cert.ReferenceIdeal.S64 .f32)
    (hdin : ∀ r : Fin 100000, (V c main_v14 : S100000x1.Idx → EReal) (ix2 r 0) = din (ix1 r))
    (hb : ∀ q : Fin 64, (V c main_v16 : S1x64.Idx → EReal) (ix2 0 q) = b (ix1 q)) (t : Fin cfg2.N) :
    (dat2 V c).flushed 3 t = ((cfg2.win 3).blk t).view.read (Elt Ideal) (Cert.Shared.act (V c main_v38) din b) := by
  show (cfg2.win 3).cut (grid2.coords t) ((dat2 V c).after 3 t) = _
  rw [after2_3]
  funext j
  obtain ⟨p, q, rfl⟩ : ∃ (p : Fin 4000) (q : Fin 64), j = ix2 p q := ⟨j 0, j 1, eq_ix2 j⟩
  have ht : t.val < 25 := Nat.lt_of_lt_of_eq t.isLt (N_2 : cfg2.N = 25)
  let r : Fin 100000 := ⟨4000 * t.val + p.val, by have := p.isLt; omega⟩
  rw [View.read_apply, emb2 t p q r rfl, Cert.Shared.act_apply]
  refine (Cert.KernelIdeal.Body.out2_3_apply (iblk2 V c 0 t) (iblk2 V c 1 t) (iblk2 V c 2 t) p q).trans ?_
  dsimp only [Cert.KernelIdeal.Body.closed]
  rw [blk2_0 V c t p q r rfl, blk2_1 V c t p r rfl, hdin r, blk2_2 V c t q, hb q]
  rfl

theorem mem_blk2 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v39).slice (win2_3.rect t)).set ↔ _
  rw [View.set_slice_whole, Rect.mem_set_unit]
  exact Iff.rfl

theorem cover2 (i : S100000x64.Idx) : ∃ t : Fin cfg2.N, (cfg2.win 3).flush t = true ∧ i ∈ ((cfg2.win 3).blk t).view.set := by
  have h0 : (i 0).val < 100000 := (i 0).isLt
  have h1 : (i 1).val < 64 := (i 1).isLt
  let t : Fin cfg2.N := ⟨(i 0).val / 4000, by rw [show cfg2.N = 25 from N_2]; omega⟩
  obtain ⟨-, -, -, -, -, -, e0, e1⟩ := idx2 t
  refine ⟨t, flush2_3 t, ?_⟩
  rw [mem_blk2]
  intro a
  have ht : t.val = (i 0).val / 4000 := rfl
  match a with
  | ⟨0, _⟩ => show win2_3.index t (0 : Fin 2) * 4000 ≤ (i 0).val ∧ (i 0).val < win2_3.index t (0 : Fin 2) * 4000 + 4000; rw [e0, ht]; omega
  | ⟨1, _⟩ => show win2_3.index t (1 : Fin 2) * 64 ≤ (i 1).val ∧ (i 1).val < win2_3.index t (1 : Fin 2) * 64 + 64; rw [e1]; omega

/-- Region 2: the second layer closed. -/
theorem region2 (c : Dev nD) (din : Cert.Shared.Arr Ideal Cert.ReferenceIdeal.S100000 .f32) (b : Cert.Shared.Arr Ideal Cert.ReferenceIdeal.S64 .f32)
    (hdin : ∀ r : Fin 100000, (V c main_v14 : S100000x1.Idx → EReal) (ix2 r 0) = din (ix1 r))
    (hb : ∀ q : Fin 64, (V c main_v16 : S1x64.Idx → EReal) (ix2 0 q) = b (ix1 q)) :
    (dat2 V c).arrAt 3 cfg2.N = Cert.Shared.act (V c main_v38) din b :=
  (dat2 V c).arrAt_eq_of_cover 3 _ (fun t _ => flushed2 V c din b hdin hb t) cover2

end Cert.KernelIdeal.Arrays

end
-- ==== Proof.Opening.lean ====
/-
  The contents of the buffers the regions read, at the first region's entry.

  The opening host stretches compute both degree scales and present them as columns [100000, 1], and present the two
  biases as rows [1, 64]; they write no argument. A column's entry (r, 0) is the scale's entry r, a row's entry (0, q)
  the bias' entry q: a reshape keeps the row-major position.

  Each stretch is read by itself, from any contents `V`: what it writes as the operations' functions of `V` at the
  buffers they read, and that it leaves the buffers a later stretch reads. The five are then composed.
-/
import proofs.«163730_j56934086476461_1_alg».proof.Proof.Gen.KernelIdeal.Frame
import proofs.«163730_j56934086476461_1_alg».proof.Proof.Shared
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Opening

open Cert.KernelIdeal Cert.KernelIdeal.Gen Idealize.ShloMosaic Idealize.ShloMosaic.TcCoe Idealize.ShloMosaic.ValueIdx Idealize.SL.Sem
open Idealize.ShloMosaic.StableHlo

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## One stretch at a time, from any contents -/

section Stretches

variable (V : Valuation τ sig (Elt Ideal))

/-- The edge count per node of the first endpoint array. -/
theorem s0_v3 : (StableHlo.after hostOps0 V (Proc.devRef .tc main_v3) : S100000.Idx → EReal)
    = Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (V (Proc.devRef .tc main_arg2))) (broadcastInDim S3200000 ![] bcast_S_S3200000 (constant (F := Ideal) S_ .f32 0x3F800000#32)) := by
  dsimp only [hostOps0]
  after_results

/-- The all-ones edge array. -/
theorem s0_v0 : (StableHlo.after hostOps0 V (Proc.devRef .tc main_v0) : S3200000.Idx → EReal)
    = broadcastInDim S3200000 ![] bcast_S_S3200000 (constant (F := Ideal) S_ .f32 0x3F800000#32) := by
  dsimp only [hostOps0]
  after_results

/-- The clip's lower bound, one. -/
theorem s0_cst1 : (StableHlo.after hostOps0 V (Proc.devRef .tc main_cst_1) : S_.Idx → EReal) = constant (F := Ideal) S_ .f32 0x3F800000#32 := by
  dsimp only [hostOps0]
  after_results

theorem s0_arg3 : StableHlo.after hostOps0 V (Proc.devRef .tc main_arg3) = V (Proc.devRef .tc main_arg3) := by
  dsimp only [hostOps0]
  after_results

/-- The first count clipped below at its bound. -/
theorem s1_v4 : (StableHlo.after hostOps0_1 V (Proc.devRef .tc main_v4) : S100000.Idx → EReal)
    = (maximumf (broadcastInDim S100000 ![] bcast_S_S100000 (id (V (Proc.devRef .tc main_cst_1) : FVec Ideal S_ .f32))) (V (Proc.devRef .tc main_v3) : FVec Ideal S100000 .f32) : FVec Ideal S100000 .f32) := by
  dsimp only [hostOps0_1]
  after_results
  simp only [TRef.ofBuf, TRef.toBuf, cast_eq]

theorem s1_v0 : StableHlo.after hostOps0_1 V (Proc.devRef .tc main_v0) = V (Proc.devRef .tc main_v0) := by
  dsimp only [hostOps0_1]
  after_results

theorem s1_arg3 : StableHlo.after hostOps0_1 V (Proc.devRef .tc main_arg3) = V (Proc.devRef .tc main_arg3) := by
  dsimp only [hostOps0_1]
  after_results

/-- The edge count per node of the second endpoint array. -/
theorem s2_v7 : (StableHlo.after hostOps0_2 V (Proc.devRef .tc main_v7) : S100000.Idx → EReal)
    = Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (V (Proc.devRef .tc main_arg3))) (V (Proc.devRef .tc main_v0) : S3200000.Idx → EReal) := by
  dsimp only [hostOps0_2]
  after_results

theorem s2_cst3 : (StableHlo.after hostOps0_2 V (Proc.devRef .tc main_cst_3) : S_.Idx → EReal) = constant (F := Ideal) S_ .f32 0x3F800000#32 := by
  dsimp only [hostOps0_2]
  after_results

theorem s2_v4 : StableHlo.after hostOps0_2 V (Proc.devRef .tc main_v4) = V (Proc.devRef .tc main_v4) := by
  dsimp only [hostOps0_2]
  after_results

/-- The second count clipped below at its bound. -/
theorem s3_v8 : (StableHlo.after hostOps0_3 V (Proc.devRef .tc main_v8) : S100000.Idx → EReal)
    = (maximumf (broadcastInDim S100000 ![] bcast_S_S100000 (id (V (Proc.devRef .tc main_cst_3) : FVec Ideal S_ .f32))) (V (Proc.devRef .tc main_v7) : FVec Ideal S100000 .f32) : FVec Ideal S100000 .f32) := by
  dsimp only [hostOps0_3]
  after_results
  simp only [TRef.ofBuf, TRef.toBuf, cast_eq]

theorem s3_v4 : StableHlo.after hostOps0_3 V (Proc.devRef .tc main_v4) = V (Proc.devRef .tc main_v4) := by
  dsimp only [hostOps0_3]
  after_results

/-- The first scale as a column. -/
theorem s4_v11 : (StableHlo.after hostOps0_4 V (Proc.devRef .tc main_v11) : S100000x1.Idx → EReal)
    = fun i => shapeCast S100000x1 (Host.powf (V (Proc.devRef .tc main_v4) : S100000.Idx → EReal) (broadcastInDim S100000 ![] bcast_S_S100000 (constant (F := Ideal) S_ .f32 0xBF000000#32))) shapeCasts_S100000_S100000x1 i := by
  dsimp only [hostOps0_4]
  after_results
  rfl

/-- The second scale as a column. -/
theorem s4_v14 : (StableHlo.after hostOps0_4 V (Proc.devRef .tc main_v14) : S100000x1.Idx → EReal)
    = fun i => shapeCast S100000x1 (Host.powf (V (Proc.devRef .tc main_v8) : S100000.Idx → EReal) (broadcastInDim S100000 ![] bcast_S_S100000 (constant (F := Ideal) S_ .f32 0xBF000000#32))) shapeCasts_S100000_S100000x1 i := by
  dsimp only [hostOps0_4]
  after_results
  rfl

/-- The first bias as a row. -/
theorem s4_v15 : (StableHlo.after hostOps0_4 V (Proc.devRef .tc main_v15) : S1x64.Idx → EReal)
    = fun i => shapeCast S1x64 (V (Proc.devRef .tc main_arg6) : S64.Idx → EReal) shapeCasts_S64_S1x64 i := by
  dsimp only [hostOps0_4]
  after_results
  rfl

/-- The second bias as a row. -/
theorem s4_v16 : (StableHlo.after hostOps0_4 V (Proc.devRef .tc main_v16) : S1x64.Idx → EReal)
    = fun i => shapeCast S1x64 (V (Proc.devRef .tc main_arg8) : S64.Idx → EReal) shapeCasts_S64_S1x64 i := by
  dsimp only [hostOps0_4]
  after_results
  rfl

end Stretches

/-! ## The five composed, from the launch memory -/

variable (m : (ℓ : Loc nD τ sig) → Buf (Elt Ideal) ℓ) (ρ : Dev nD → PrngReg)

/-- The first clipped count when the last opening stretch is entered. -/
theorem W4_v4 (c : Dev nD) : (W4 m ρ c (Proc.devRef .tc main_v4) : S100000.Idx → EReal)
    = maximumf (broadcastInDim S100000 ![] bcast_S_S100000 (id (constant (F := Ideal) S_ .f32 0x3F800000#32))) (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (m ((c.tc : Thread nD τ).loc main_arg2))) (broadcastInDim S3200000 ![] bcast_S_S3200000 (constant (F := Ideal) S_ .f32 0x3F800000#32))) := by
  refine (s3_v4 (W3 m ρ c)).trans ((s2_v4 (W2 m ρ c)).trans ((s1_v4 (W1 m ρ c)).trans ?_))
  dsimp only [W1]
  rw [s0_cst1 (W0 m ρ c), s0_v3 (W0 m ρ c)]
  all_goals rfl

/-- The second clipped count when the last opening stretch is entered. -/
theorem W4_v8 (c : Dev nD) : (W4 m ρ c (Proc.devRef .tc main_v8) : S100000.Idx → EReal)
    = maximumf (broadcastInDim S100000 ![] bcast_S_S100000 (id (constant (F := Ideal) S_ .f32 0x3F800000#32))) (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (m ((c.tc : Thread nD τ).loc main_arg3))) (broadcastInDim S3200000 ![] bcast_S_S3200000 (constant (F := Ideal) S_ .f32 0x3F800000#32))) := by
  refine (s3_v8 (W3 m ρ c)).trans ?_
  dsimp only [W3]
  rw [s2_cst3 (W2 m ρ c), s2_v7 (W2 m ρ c)]
  dsimp only [W2]
  rw [s1_arg3 (W1 m ρ c), s1_v0 (W1 m ρ c)]
  dsimp only [W1]
  rw [s0_arg3 (W0 m ρ c), s0_v0 (W0 m ρ c)]
  all_goals rfl

/-- The out-degree scale's column, whole. -/
theorem W5_v11_arr (c : Dev nD) : (W5 m ρ c (Proc.devRef .tc main_v11) : S100000x1.Idx → EReal)
    = fun i => shapeCast S100000x1 (Cert.Shared.invSqrtDeg (m ((c.tc : Thread nD τ).loc main_arg2))) shapeCasts_S100000_S100000x1 i := by
  refine (s4_v11 (W4 m ρ c)).trans ?_
  rw [W4_v4 m ρ c]
  all_goals rfl

/-- The in-degree scale's column, whole. -/
theorem W5_v14_arr (c : Dev nD) : (W5 m ρ c (Proc.devRef .tc main_v14) : S100000x1.Idx → EReal)
    = fun i => shapeCast S100000x1 (Cert.Shared.invSqrtDeg (m ((c.tc : Thread nD τ).loc main_arg3))) shapeCasts_S100000_S100000x1 i := by
  refine (s4_v14 (W4 m ρ c)).trans ?_
  rw [W4_v8 m ρ c]
  all_goals rfl

/-! The opening stretches write no argument: each holds its launch contents at the first region's entry. -/

theorem W5_arg0 (c : Dev nD) : W5 m ρ c (Proc.devRef .tc main_arg0) = m ((c.tc : Thread nD τ).loc main_arg0) := by
  dsimp only [W5, W4, W3, W2, W1, hostOps0_4, hostOps0_3, hostOps0_2, hostOps0_1, hostOps0]; after_results
theorem W5_arg2 (c : Dev nD) : W5 m ρ c (Proc.devRef .tc main_arg2) = m ((c.tc : Thread nD τ).loc main_arg2) := by
  dsimp only [W5, W4, W3, W2, W1, hostOps0_4, hostOps0_3, hostOps0_2, hostOps0_1, hostOps0]; after_results
theorem W5_arg3 (c : Dev nD) : W5 m ρ c (Proc.devRef .tc main_arg3) = m ((c.tc : Thread nD τ).loc main_arg3) := by
  dsimp only [W5, W4, W3, W2, W1, hostOps0_4, hostOps0_3, hostOps0_2, hostOps0_1, hostOps0]; after_results
theorem W5_arg4 (c : Dev nD) : W5 m ρ c (Proc.devRef .tc main_arg4) = m ((c.tc : Thread nD τ).loc main_arg4) := by
  dsimp only [W5, W4, W3, W2, W1, hostOps0_4, hostOps0_3, hostOps0_2, hostOps0_1, hostOps0]; after_results
theorem W5_arg5 (c : Dev nD) : W5 m ρ c (Proc.devRef .tc main_arg5) = m ((c.tc : Thread nD τ).loc main_arg5) := by
  dsimp only [W5, W4, W3, W2, W1, hostOps0_4, hostOps0_3, hostOps0_2, hostOps0_1, hostOps0]; after_results
theorem W5_arg7 (c : Dev nD) : W5 m ρ c (Proc.devRef .tc main_arg7) = m ((c.tc : Thread nD τ).loc main_arg7) := by
  dsimp only [W5, W4, W3, W2, W1, hostOps0_4, hostOps0_3, hostOps0_2, hostOps0_1, hostOps0]; after_results
theorem W5_arg11 (c : Dev nD) : W5 m ρ c (Proc.devRef .tc main_arg11) = m ((c.tc : Thread nD τ).loc main_arg11) := by
  dsimp only [W5, W4, W3, W2, W1, hostOps0_4, hostOps0_3, hostOps0_2, hostOps0_1, hostOps0]; after_results
theorem W5_arg12 (c : Dev nD) : W5 m ρ c (Proc.devRef .tc main_arg12) = m ((c.tc : Thread nD τ).loc main_arg12) := by
  dsimp only [W5, W4, W3, W2, W1, hostOps0_4, hostOps0_3, hostOps0_2, hostOps0_1, hostOps0]; after_results
theorem W5_arg13 (c : Dev nD) : W5 m ρ c (Proc.devRef .tc main_arg13) = m ((c.tc : Thread nD τ).loc main_arg13) := by
  dsimp only [W5, W4, W3, W2, W1, hostOps0_4, hostOps0_3, hostOps0_2, hostOps0_1, hostOps0]; after_results
theorem W5_arg14 (c : Dev nD) : W5 m ρ c (Proc.devRef .tc main_arg14) = m ((c.tc : Thread nD τ).loc main_arg14) := by
  dsimp only [W5, W4, W3, W2, W1, hostOps0_4, hostOps0_3, hostOps0_2, hostOps0_1, hostOps0]; after_results

/-- The first bias' row, whole. -/
theorem W5_v15_arr (c : Dev nD) : (W5 m ρ c (Proc.devRef .tc main_v15) : S1x64.Idx → EReal)
    = fun i => shapeCast S1x64 (m ((c.tc : Thread nD τ).loc main_arg6) : S64.Idx → EReal) shapeCasts_S64_S1x64 i := by
  refine (s4_v15 (W4 m ρ c)).trans ?_
  have h : W4 m ρ c (Proc.devRef .tc main_arg6) = m ((c.tc : Thread nD τ).loc main_arg6) := by
    dsimp only [W4, W3, W2, W1, hostOps0_3, hostOps0_2, hostOps0_1, hostOps0]; after_results
  rw [h]

/-- The second bias' row, whole. -/
theorem W5_v16_arr (c : Dev nD) : (W5 m ρ c (Proc.devRef .tc main_v16) : S1x64.Idx → EReal)
    = fun i => shapeCast S1x64 (m ((c.tc : Thread nD τ).loc main_arg8) : S64.Idx → EReal) shapeCasts_S64_S1x64 i := by
  refine (s4_v16 (W4 m ρ c)).trans ?_
  have h : W4 m ρ c (Proc.devRef .tc main_arg8) = m ((c.tc : Thread nD τ).loc main_arg8) := by
    dsimp only [W4, W3, W2, W1, hostOps0_3, hostOps0_2, hostOps0_1, hostOps0]; after_results
  rw [h]

theorem W5_v11 (c : Dev nD) (r : Fin 100000) : (W5 m ρ c (Proc.devRef .tc main_v11) : S100000x1.Idx → EReal) (ix2 r 0)
    = Cert.Shared.invSqrtDeg (m ((c.tc : Thread nD τ).loc main_arg2)) (ix1 r) :=
  (congrFun (W5_v11_arr m ρ c) (ix2 r 0)).trans (shapeCast_a_a1_apply _ _ r 0)

theorem W5_v14 (c : Dev nD) (r : Fin 100000) : (W5 m ρ c (Proc.devRef .tc main_v14) : S100000x1.Idx → EReal) (ix2 r 0)
    = Cert.Shared.invSqrtDeg (m ((c.tc : Thread nD τ).loc main_arg3)) (ix1 r) :=
  (congrFun (W5_v14_arr m ρ c) (ix2 r 0)).trans (shapeCast_a_a1_apply _ _ r 0)

theorem W5_v15 (c : Dev nD) (q : Fin 64) : (W5 m ρ c (Proc.devRef .tc main_v15) : S1x64.Idx → EReal) (ix2 0 q)
    = (m ((c.tc : Thread nD τ).loc main_arg6) : S64.Idx → EReal) (ix1 q) :=
  (congrFun (W5_v15_arr m ρ c) (ix2 0 q)).trans (shapeCast_a_1a_apply _ _ 0 q)

theorem W5_v16 (c : Dev nD) (q : Fin 64) : (W5 m ρ c (Proc.devRef .tc main_v16) : S1x64.Idx → EReal) (ix2 0 q)
    = (m ((c.tc : Thread nD τ).loc main_arg8) : S64.Idx → EReal) (ix1 q) :=
  (congrFun (W5_v16_arr m ρ c) (ix2 0 q)).trans (shapeCast_a_1a_apply _ _ 0 q)

end Cert.KernelIdeal.Opening

end
-- ==== Proof.Boundaries.lean ====
/-
  The contents of the two result buffers at the last boundary, as the shared composition of the launch arguments.

  The run's boundaries fold the launch memory through the host stretches and the three regions. Walking back from the
  last boundary: the closing host stretch is a head of the per-graph mean of region 2's output; region 2's output is the
  second layer closed over the message-passed output of region 1; region 1's is the second layer's projection over the
  message-passed output of region 0; region 0's is the first layer's projection. The degree-scale columns and bias rows
  the regions read are written once, by the opening host stretch, and nothing after it writes them or an argument.
-/
import proofs.«163730_j56934086476461_1_alg».proof.Proof.Gen.KernelIdeal.Frame
import proofs.«163730_j56934086476461_1_alg».proof.Proof.Shared
import proofs.«163730_j56934086476461_1_alg».proof.Proof.KernelArrays
import proofs.«163730_j56934086476461_1_alg».proof.Proof.ValueRun
import proofs.«163730_j56934086476461_1_alg».proof.Proof.Opening
import Idealize.ShloMosaic.Lib.StableHlo.Run
import Idealize.ShloMosaic.Lib.Pipeline.Value
import Idealize.ShloMosaic.Lib.ValueIdx

set_option maxRecDepth 16384

noncomputable section

namespace Cert.KernelIdeal.Boundaries

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The two stretches between the regions: what they write, what they keep, what they compute -/

/-- The references the stretch between regions 0 and 1 writes. -/
abbrev ops1_W : List (Ref sig .tc) :=
  [main_c, main_v18, main_v19, main_c_6, main_v20, main_v21, main_v22, main_v23, main_v24, main_cst_7, main_v25, main_v26, main_v27]

theorem ops1_writes : (hostOps1 : List (HloOp τ sig (Elt Ideal))).Forall fun op => op.writes ⊆ (ops1_W.map (Proc.devRef (τ := τ) .tc)).toFinset := by
  simp only [hostOps1, List.Forall]
  repeat' apply And.intro
  all_goals
    simp only [nullary_writes, unary_writes, binary_writes, ternary_writes, Finset.singleton_subset_iff, List.mem_toFinset]
    exact List.mem_map_of_mem (by decide)

/-- A buffer the stretch between regions 0 and 1 does not write keeps its contents. -/
theorem keep1 (V : Valuation τ sig (Elt Ideal)) (r : Ref sig .tc) (h : r ∉ ops1_W) :
    StableHlo.after hostOps1 V (Proc.devRef .tc r) = V (Proc.devRef .tc r) :=
  after_of_writes_sub hostOps1 V ops1_writes h

/-- The references the stretch between regions 1 and 2 writes. -/
abbrev ops2_W : List (Ref sig .tc) :=
  [main_c_8, main_v29, main_v30, main_c_9, main_v31, main_v32, main_v33, main_v34, main_v35, main_cst_10, main_v36, main_v37, main_v38]

theorem ops2_writes : (hostOps2 : List (HloOp τ sig (Elt Ideal))).Forall fun op => op.writes ⊆ (ops2_W.map (Proc.devRef (τ := τ) .tc)).toFinset := by
  simp only [hostOps2, List.Forall]
  repeat' apply And.intro
  all_goals
    simp only [nullary_writes, unary_writes, binary_writes, ternary_writes, Finset.singleton_subset_iff, List.mem_toFinset]
    exact List.mem_map_of_mem (by decide)

/-- A buffer the stretch between regions 1 and 2 does not write keeps its contents. -/
theorem keep2 (V : Valuation τ sig (Elt Ideal)) (r : Ref sig .tc) (h : r ∉ ops2_W) :
    StableHlo.after hostOps2 V (Proc.devRef .tc r) = V (Proc.devRef .tc r) :=
  after_of_writes_sub hostOps2 V ops2_writes h

/-- The stretch between regions 0 and 1 is one round of message passing over region 0's output. -/
theorem spread1 (V : Valuation τ sig (Elt Ideal)) : StableHlo.after hostOps1 V (Proc.devRef .tc main_v27)
    = Cert.Shared.spread (V (Proc.devRef .tc main_v17)) (V (Proc.devRef .tc main_arg2)) (V (Proc.devRef .tc main_arg3)) := by
  dsimp only [hostOps1]
  after_results_simp
  rfl

/-- The stretch between regions 1 and 2 is one round of message passing over region 1's output. -/
theorem spread2 (V : Valuation τ sig (Elt Ideal)) : StableHlo.after hostOps2 V (Proc.devRef .tc main_v38)
    = Cert.Shared.spread (V (Proc.devRef .tc main_v28)) (V (Proc.devRef .tc main_arg2)) (V (Proc.devRef .tc main_arg3)) := by
  dsimp only [hostOps2]
  after_results_simp
  rfl

/-! ## The closing stretches: a head of the per-graph mean -/

/-- The first result: the head with the first pair of head parameters. -/
theorem tail_v54 (V : Valuation τ sig (Elt Ideal)) : StableHlo.after hostOps3_2 (StableHlo.after hostOps3_1 (StableHlo.after hostOps3 V)) (Proc.devRef .tc main_v54)
    = Cert.Shared.head (Cert.Shared.pooled (V (Proc.devRef .tc main_v39)) (V (Proc.devRef .tc main_arg4))) (V (Proc.devRef .tc main_arg11)) (V (Proc.devRef .tc main_arg12)) := by
  dsimp only [hostOps3_2, hostOps3_1, hostOps3]
  after_results_simp
  simp only [TRef.ofBuf, TRef.toBuf, cast_eq]
  rfl

/-- The second result: the head with the second pair of head parameters. -/
theorem tail_v58 (V : Valuation τ sig (Elt Ideal)) : StableHlo.after hostOps3_2 (StableHlo.after hostOps3_1 (StableHlo.after hostOps3 V)) (Proc.devRef .tc main_v58)
    = Cert.Shared.head (Cert.Shared.pooled (V (Proc.devRef .tc main_v39)) (V (Proc.devRef .tc main_arg4))) (V (Proc.devRef .tc main_arg13)) (V (Proc.devRef .tc main_arg14)) := by
  dsimp only [hostOps3_2, hostOps3_1, hostOps3]
  after_results_simp
  simp only [TRef.ofBuf, TRef.toBuf, cast_eq]
  rfl

/-! ## The boundaries, one by one

Below, `x`, `src`, `dst`, `ng`, `W₁`, `b₁`, `W₂`, `b₂` stand for the launch contents of arguments 0, 2, 3, 4, 5, 6, 7, 8. -/

/-- Region 0 reads the out-degree scale column and leaves it as it found it. -/
theorem W6_v11 (c : Dev nD) : W6 m ρ c (Proc.devRef .tc main_v11) = W5 m ρ c (Proc.devRef .tc main_v11) :=
  (W6_arr m ρ c 2).trans (((dat0 (V5 m ρ) c).arrAt_in 2 rfl _).trans (A_eq0 (V5 m ρ) c 2))

/-- Region 0's output is the first layer's projection `(x · W₁)` scaled by the out-degree scale. -/
theorem W6_v17 (c : Dev nD) : W6 m ρ c (Proc.devRef .tc main_v17)
    = Cert.Shared.layer1 (m ((c.tc : Thread nD τ).loc main_arg0)) (m ((c.tc : Thread nD τ).loc main_arg5))
        (Cert.Shared.invSqrtDeg (m ((c.tc : Thread nD τ).loc main_arg2))) := by
  refine (W6_arr m ρ c 3).trans ?_
  refine (Arrays.region0 (V5 m ρ) c _ (Opening.W5_v11 m ρ c)).trans ?_
  dsimp only [V5]
  rw [Opening.W5_arg0 m ρ c, Opening.W5_arg5 m ρ c]

/-- A buffer that neither region 0 nor the stretch after it touches is, at region 1's entry, as at region 0's entry. -/
theorem W7_of_W5 (c : Dev nD) (b : Ref sig .tc) (h1 : b ∉ ops1_W) (h0 : ∀ w, Pipeline.arrRef spec0 w ≠ b) :
    W7 m ρ c (Proc.devRef .tc b) = W5 m ρ c (Proc.devRef .tc b) :=
  (keep1 (W6 m ρ c) b h1).trans (W6_of_ne m ρ c b h0)

/-- Region 1's entry holds the first round of message passing over the first layer's projection. -/
theorem W7_v27 (c : Dev nD) : W7 m ρ c (Proc.devRef .tc main_v27)
    = Cert.Shared.spread (Cert.Shared.layer1 (m ((c.tc : Thread nD τ).loc main_arg0)) (m ((c.tc : Thread nD τ).loc main_arg5))
        (Cert.Shared.invSqrtDeg (m ((c.tc : Thread nD τ).loc main_arg2)))) (m ((c.tc : Thread nD τ).loc main_arg2)) (m ((c.tc : Thread nD τ).loc main_arg3)) := by
  refine (spread1 (W6 m ρ c)).trans ?_
  rw [W6_v17 m ρ c, W6_of_ne m ρ c main_arg2 (by decide), W6_of_ne m ρ c main_arg3 (by decide), Opening.W5_arg2 m ρ c, Opening.W5_arg3 m ρ c]

/-- The out-degree scale column at region 1's entry. -/
theorem W7_v11 (c : Dev nD) (r : Fin 100000) : (W7 m ρ c (Proc.devRef .tc main_v11) : S100000x1.Idx → EReal) (ix2 r 0)
    = Cert.Shared.invSqrtDeg (m ((c.tc : Thread nD τ).loc main_arg2)) (ix1 r) :=
  (congrFun ((keep1 (W6 m ρ c) main_v11 (by decide)).trans (W6_v11 m ρ c)) (ix2 r 0)).trans (Opening.W5_v11 m ρ c r)

/-- The in-degree scale column at region 1's entry. -/
theorem W7_v14 (c : Dev nD) (r : Fin 100000) : (W7 m ρ c (Proc.devRef .tc main_v14) : S100000x1.Idx → EReal) (ix2 r 0)
    = Cert.Shared.invSqrtDeg (m ((c.tc : Thread nD τ).loc main_arg3)) (ix1 r) :=
  (congrFun (W7_of_W5 m ρ c main_v14 (by decide) (by decide)) (ix2 r 0)).trans (Opening.W5_v14 m ρ c r)

/-- The first bias row at region 1's entry. -/
theorem W7_v15 (c : Dev nD) (q : Fin 64) : (W7 m ρ c (Proc.devRef .tc main_v15) : S1x64.Idx → EReal) (ix2 0 q)
    = (m ((c.tc : Thread nD τ).loc main_arg6) : S64.Idx → EReal) (ix1 q) :=
  (congrFun (W7_of_W5 m ρ c main_v15 (by decide) (by decide)) (ix2 0 q)).trans (Opening.W5_v15 m ρ c q)

/-- The second layer's weights at region 1's entry. -/
theorem W7_arg7 (c : Dev nD) : W7 m ρ c (Proc.devRef .tc main_arg7) = m ((c.tc : Thread nD τ).loc main_arg7) :=
  (W7_of_W5 m ρ c main_arg7 (by decide) (by decide)).trans (Opening.W5_arg7 m ρ c)

/-- Region 1 reads the in-degree scale column and leaves it as it found it. -/
theorem W8_v14 (c : Dev nD) : W8 m ρ c (Proc.devRef .tc main_v14) = W7 m ρ c (Proc.devRef .tc main_v14) :=
  (W8_arr m ρ c 1).trans (((dat1 (V7 m ρ) c).arrAt_in 1 rfl _).trans (A_eq1 (V7 m ρ) c 1))

/-- Region 1's output: the first layer closed over the first round of message passing, then the second layer's projection. -/
theorem W8_v28 (c : Dev nD) : W8 m ρ c (Proc.devRef .tc main_v28)
    = Cert.Shared.layer2 (Cert.Shared.spread (Cert.Shared.layer1 (m ((c.tc : Thread nD τ).loc main_arg0)) (m ((c.tc : Thread nD τ).loc main_arg5))
        (Cert.Shared.invSqrtDeg (m ((c.tc : Thread nD τ).loc main_arg2)))) (m ((c.tc : Thread nD τ).loc main_arg2)) (m ((c.tc : Thread nD τ).loc main_arg3)))
        (Cert.Shared.invSqrtDeg (m ((c.tc : Thread nD τ).loc main_arg3))) (m ((c.tc : Thread nD τ).loc main_arg6)) (m ((c.tc : Thread nD τ).loc main_arg7))
        (Cert.Shared.invSqrtDeg (m ((c.tc : Thread nD τ).loc main_arg2))) := by
  refine (W8_arr m ρ c 5).trans ?_
  refine (Arrays.region1 (V7 m ρ) c (Cert.Shared.invSqrtDeg (m ((c.tc : Thread nD τ).loc main_arg3))) (Cert.Shared.invSqrtDeg (m ((c.tc : Thread nD τ).loc main_arg2)))
    (m ((c.tc : Thread nD τ).loc main_arg6)) (W7_v14 m ρ c) (W7_v15 m ρ c) (W7_v11 m ρ c)).trans ?_
  dsimp only [V7]
  rw [W7_v27 m ρ c, W7_arg7 m ρ c]

/-- A buffer untouched from region 0's entry to region 1's exit. -/
theorem W8_of_W5 (c : Dev nD) (b : Ref sig .tc) (hr1 : ∀ w, Pipeline.arrRef spec1 w ≠ b) (h1 : b ∉ ops1_W) (h0 : ∀ w, Pipeline.arrRef spec0 w ≠ b) :
    W8 m ρ c (Proc.devRef .tc b) = W5 m ρ c (Proc.devRef .tc b) :=
  (W8_of_ne m ρ c b hr1).trans (W7_of_W5 m ρ c b h1 h0)

/-- A buffer untouched from region 0's entry to region 2's entry. -/
theorem W9_of_W5 (c : Dev nD) (b : Ref sig .tc) (h2 : b ∉ ops2_W) (hr1 : ∀ w, Pipeline.arrRef spec1 w ≠ b) (h1 : b ∉ ops1_W) (h0 : ∀ w, Pipeline.arrRef spec0 w ≠ b) :
    W9 m ρ c (Proc.devRef .tc b) = W5 m ρ c (Proc.devRef .tc b) :=
  (keep2 (W8 m ρ c) b h2).trans (W8_of_W5 m ρ c b hr1 h1 h0)

/-- Region 2's entry holds the second round of message passing over region 1's output. -/
theorem W9_v38 (c : Dev nD) : W9 m ρ c (Proc.devRef .tc main_v38)
    = Cert.Shared.spread (Cert.Shared.layer2 (Cert.Shared.spread (Cert.Shared.layer1 (m ((c.tc : Thread nD τ).loc main_arg0)) (m ((c.tc : Thread nD τ).loc main_arg5))
        (Cert.Shared.invSqrtDeg (m ((c.tc : Thread nD τ).loc main_arg2)))) (m ((c.tc : Thread nD τ).loc main_arg2)) (m ((c.tc : Thread nD τ).loc main_arg3)))
        (Cert.Shared.invSqrtDeg (m ((c.tc : Thread nD τ).loc main_arg3))) (m ((c.tc : Thread nD τ).loc main_arg6)) (m ((c.tc : Thread nD τ).loc main_arg7))
        (Cert.Shared.invSqrtDeg (m ((c.tc : Thread nD τ).loc main_arg2)))) (m ((c.tc : Thread nD τ).loc main_arg2)) (m ((c.tc : Thread nD τ).loc main_arg3)) := by
  refine (spread2 (W8 m ρ c)).trans ?_
  rw [W8_v28 m ρ c, W8_of_W5 m ρ c main_arg2 (by decide) (by decide) (by decide), W8_of_W5 m ρ c main_arg3 (by decide) (by decide) (by decide),
    Opening.W5_arg2 m ρ c, Opening.W5_arg3 m ρ c]

/-- The in-degree scale column at region 2's entry. -/
theorem W9_v14 (c : Dev nD) (r : Fin 100000) : (W9 m ρ c (Proc.devRef .tc main_v14) : S100000x1.Idx → EReal) (ix2 r 0)
    = Cert.Shared.invSqrtDeg (m ((c.tc : Thread nD τ).loc main_arg3)) (ix1 r) :=
  (congrFun ((keep2 (W8 m ρ c) main_v14 (by decide)).trans (W8_v14 m ρ c)) (ix2 r 0)).trans (W7_v14 m ρ c r)

/-- The second bias row at region 2's entry. -/
theorem W9_v16 (c : Dev nD) (q : Fin 64) : (W9 m ρ c (Proc.devRef .tc main_v16) : S1x64.Idx → EReal) (ix2 0 q)
    = (m ((c.tc : Thread nD τ).loc main_arg8) : S64.Idx → EReal) (ix1 q) :=
  (congrFun (W9_of_W5 m ρ c main_v16 (by decide) (by decide) (by decide) (by decide)) (ix2 0 q)).trans (Opening.W5_v16 m ρ c q)

/-- Region 2's output: the node embeddings after both layers. -/
theorem W10_v39 (c : Dev nD) : W10 m ρ c (Proc.devRef .tc main_v39)
    = Cert.Shared.embed (m ((c.tc : Thread nD τ).loc main_arg0)) (m ((c.tc : Thread nD τ).loc main_arg2)) (m ((c.tc : Thread nD τ).loc main_arg3))
        (m ((c.tc : Thread nD τ).loc main_arg5)) (m ((c.tc : Thread nD τ).loc main_arg6)) (m ((c.tc : Thread nD τ).loc main_arg7)) (m ((c.tc : Thread nD τ).loc main_arg8)) := by
  refine (W10_arr m ρ c 3).trans ?_
  refine (Arrays.region2 (V9 m ρ) c (Cert.Shared.invSqrtDeg (m ((c.tc : Thread nD τ).loc main_arg3))) (m ((c.tc : Thread nD τ).loc main_arg8))
    (W9_v14 m ρ c) (W9_v16 m ρ c)).trans ?_
  dsimp only [V9]
  rw [W9_v38 m ρ c]
  rfl

/-- A buffer untouched from region 0's entry to region 2's exit. -/
theorem W10_of_W5 (c : Dev nD) (b : Ref sig .tc) (hr2 : ∀ w, Pipeline.arrRef spec2 w ≠ b) (h2 : b ∉ ops2_W) (hr1 : ∀ w, Pipeline.arrRef spec1 w ≠ b)
    (h1 : b ∉ ops1_W) (h0 : ∀ w, Pipeline.arrRef spec0 w ≠ b) :
    W10 m ρ c (Proc.devRef .tc b) = W5 m ρ c (Proc.devRef .tc b) :=
  (W10_of_ne m ρ c b hr2).trans (W9_of_W5 m ρ c b h2 hr1 h1 h0)

/-- The per-graph node assignment at region 2's exit. -/
theorem W10_arg4 (c : Dev nD) : W10 m ρ c (Proc.devRef .tc main_arg4) = m ((c.tc : Thread nD τ).loc main_arg4) :=
  (W10_of_W5 m ρ c main_arg4 (by decide) (by decide) (by decide) (by decide) (by decide)).trans (Opening.W5_arg4 m ρ c)
/-- The first head's weights at region 2's exit. -/
theorem W10_arg11 (c : Dev nD) : W10 m ρ c (Proc.devRef .tc main_arg11) = m ((c.tc : Thread nD τ).loc main_arg11) :=
  (W10_of_W5 m ρ c main_arg11 (by decide) (by decide) (by decide) (by decide) (by decide)).trans (Opening.W5_arg11 m ρ c)
/-- The first head's bias at region 2's exit. -/
theorem W10_arg12 (c : Dev nD) : W10 m ρ c (Proc.devRef .tc main_arg12) = m ((c.tc : Thread nD τ).loc main_arg12) :=
  (W10_of_W5 m ρ c main_arg12 (by decide) (by decide) (by decide) (by decide) (by decide)).trans (Opening.W5_arg12 m ρ c)
/-- The second head's weights at region 2's exit. -/
theorem W10_arg13 (c : Dev nD) : W10 m ρ c (Proc.devRef .tc main_arg13) = m ((c.tc : Thread nD τ).loc main_arg13) :=
  (W10_of_W5 m ρ c main_arg13 (by decide) (by decide) (by decide) (by decide) (by decide)).trans (Opening.W5_arg13 m ρ c)
/-- The second head's bias at region 2's exit. -/
theorem W10_arg14 (c : Dev nD) : W10 m ρ c (Proc.devRef .tc main_arg14) = m ((c.tc : Thread nD τ).loc main_arg14) :=
  (W10_of_W5 m ρ c main_arg14 (by decide) (by decide) (by decide) (by decide) (by decide)).trans (Opening.W5_arg14 m ρ c)

/-! ## The two results -/

/-- The first result buffer at the last boundary. -/
theorem W13_v54 (c : Dev nD) : W13 m ρ c (Proc.devRef .tc main_v54) = Cert.Shared.whole (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  refine (tail_v54 (W10 m ρ c)).trans ?_
  rw [W10_v39 m ρ c, W10_arg4 m ρ c, W10_arg11 m ρ c, W10_arg12 m ρ c]
  rfl

/-- The second result buffer at the last boundary. -/
theorem W13_v58 (c : Dev nD) : W13 m ρ c (Proc.devRef .tc main_v58) = Cert.Shared.whole (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) := by
  refine (tail_v58 (W10 m ρ c)).trans ?_
  rw [W10_v39 m ρ c, W10_arg4 m ρ c, W10_arg13 m ρ c, W10_arg14 m ρ c]
  rfl

end Cert.KernelIdeal.Boundaries

end
-- ==== Proof.lean ====
/-
  A two-layer graph convolution with per-graph mean pooling and two linear heads, computed by three node-tiled kernels
  among host gathers and scatter-adds, against the same network written with whole-array operations.

  Both programs compute, for node features x, edge endpoints src and dst, and node-to-graph labels:
  the degree scales deg ^ (-1/2) of both endpoint arrays (counts clipped below at one); h1 = (x · W1) scaled per row by the
  out-degree scale; a1 = the rows of h1 gathered along src and added into dst; h2 = (max (a1 · in-degree scale + b1) 0 · W2)
  scaled by the out-degree scale; a2 likewise from h2; e = max (a2 · in-degree scale + b2) 0; the per-graph mean of e; and
  for each head the mean times its weights plus its bias. The kernels tile the node axis in 25 blocks of 4000 rows and
  take the scales as columns and the biases as rows; their matrix products run on narrowed floats, which on the extended
  reals is the identity, into a zero accumulator, which is the textbook sum. The host program computes the degree
  scales once per layer and an edge-feature product that reaches no result. No law beyond reading both sides entry
  by entry is needed, so the finiteness of the inputs is never used.

  The three frames: the kernel programs' are the generated frame certificates; the host program's is its generated run with
  the results dropped. The idealization rewrote nothing. For the value claim both runs end with each result at the one
  shared composition of the arguments (Proof/Shared.lean): the host program's composed term unfolds to it
  (Proof/RefSide.lean); the kernel program's result buffers are read off the last boundary of its run
  (Proof/ValueRun.lean), and that boundary's contents walk back through the host stretches and the three regions
  (Proof/Boundaries.lean), each region's output array being one shared stage of the arrays it finds
  (Proof/KernelArrays.lean over Proof/KernelBody.lean and Proof/DenseAt.lean).
-/
import proofs.«163730_j56934086476461_1_alg».proof.Defs
import proofs.«163730_j56934086476461_1_alg».proof.Proof.Gen.Kernel
import proofs.«163730_j56934086476461_1_alg».proof.Proof.Gen.Kernel.Skeleton
import proofs.«163730_j56934086476461_1_alg».proof.Proof.Gen.Kernel.Launch
import proofs.«163730_j56934086476461_1_alg».proof.Proof.Gen.Kernel.Points
import proofs.«163730_j56934086476461_1_alg».proof.Proof.Gen.Kernel.Frame
import proofs.«163730_j56934086476461_1_alg».proof.Proof.Gen.KernelIdeal
import proofs.«163730_j56934086476461_1_alg».proof.Proof.Gen.KernelIdeal.Skeleton
import proofs.«163730_j56934086476461_1_alg».proof.Proof.Gen.KernelIdeal.Launch
import proofs.«163730_j56934086476461_1_alg».proof.Proof.Gen.KernelIdeal.Points
import proofs.«163730_j56934086476461_1_alg».proof.Proof.Gen.KernelIdeal.Frame
import proofs.«163730_j56934086476461_1_alg».proof.Proof.Gen.ReferenceIdeal
import proofs.«163730_j56934086476461_1_alg».proof.Proof.Gen.ReferenceIdeal.Run
import proofs.«163730_j56934086476461_1_alg».proof.Proof.Gen.Pre_finite_inputs
import proofs.«163730_j56934086476461_1_alg».proof.Proof.Shared
import proofs.«163730_j56934086476461_1_alg».proof.Proof.RefSide
import proofs.«163730_j56934086476461_1_alg».proof.Proof.ValueRun
import proofs.«163730_j56934086476461_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The host program's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with each result at the shared composition of the arguments, which agree. -/
theorem algebraic : Cert.algebraic_KernelIdeal_ReferenceIdeal := by
  intro m ρ m' ρ' _ hagree
  refine ⟨fun c => Cert.Shared.whole (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Shared.whole (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.ValueRun.run_results (F := Ideal) m ρ)
    exact ⟨(h c).1.trans (Cert.KernelIdeal.Boundaries.W13_v54 m ρ c), (h c).2.1.trans (Cert.KernelIdeal.Boundaries.W13_v58 m ρ c), (h c).2.2⟩
  · refine (θ_run Cert.ReferenceIdeal.defs _ _).mono (fun r h c => ?_) (Cert.ReferenceIdeal.Value.run (F := Ideal) m' ρ')
    obtain ⟨a0, -, a2, a3, a4, a5, a6, a7, a8, -, -, a11, a12, a13, a14⟩ := hagree c
    refine ⟨(h c).1.trans ?_, (h c).2.1.trans ?_, (h c).2.2⟩
    · refine (Cert.ReferenceIdeal.RefValue.res_out0_eq m' c).trans ?_
      rw [a0, a2, a3, a4, a5, a6, a7, a8, a11, a12]
    · refine (Cert.ReferenceIdeal.RefValue.res_out1_eq m' c).trans ?_
      rw [a0, a2, a3, a4, a5, a6, a7, a8, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
